-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x4096x4096 : Shape := ⟨3, ![4, 4096, 4096]⟩
abbrev S64x4096 : Shape := ⟨2, ![64, 4096]⟩
abbrev S4x64x4096 : Shape := ⟨3, ![4, 64, 4096]⟩
abbrev S4x4096x64 : Shape := ⟨3, ![4, 4096, 64]⟩
abbrev S4x384x4096 : Shape := ⟨3, ![4, 384, 4096]⟩
abbrev S4x64x384 : Shape := ⟨3, ![4, 64, 384]⟩
abbrev S1x384x4096 : Shape := ⟨3, ![1, 384, 4096]⟩
abbrev S384x4096 : Shape := ⟨2, ![384, 4096]⟩
abbrev S64x384 : Shape := ⟨2, ![64, 384]⟩
abbrev S384 : Shape := ⟨1, ![384]⟩
abbrev S1x384 : Shape := ⟨2, ![1, 384]⟩
abbrev S1x64x384 : Shape := ⟨3, ![1, 64, 384]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x64x4096, .f32⟩
  | .hbm, ⟨3, _⟩ => ⟨S4x4096x64, .f32⟩
  | .local _ .vmem, ⟨0, _⟩ => ⟨S4x384x4096, .f32⟩
  | .local _ .vmem, ⟨1, _⟩ => ⟨S4x384x4096, .f32⟩
  | .local _ .vmem, ⟨2, _⟩ => ⟨S64x4096, .f32⟩
  | .local _ .vmem, ⟨3, _⟩ => ⟨S4x64x384, .f32⟩
  | .local _ .vmem, ⟨4, _⟩ => ⟨S4x64x384, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x64x4096_S4x4096x64_0_2_1 : S4x64x4096.Transposes [0, 2, 1] S4x4096x64
  inb_S64x4096_S64x4096_0_0 : ∀ a, (![0, 0] : Fin 2 → Nat) a + S64x4096.size a ≤ S64x4096.size a
  h_S64x4096 : 0 < S64x4096.numel
  inb_S4x384x4096_S1x384x4096_0_0_0 : ∀ a, (![0, 0, 0] : Fin 3 → Nat) a + S1x384x4096.size a ≤ S4x384x4096.size a
  h_S1x384x4096 : 0 < S1x384x4096.numel
  shapeCasts_S1x384x4096_S384x4096 : S1x384x4096.ShapeCasts S384x4096
  reduces_S64x384_S384 : S64x384.Reduces [0] S384
  shapeCasts_S384_S1x384 : S384.ShapeCasts S1x384
  broadcasts_S1x384_S64x384 : S1x384.Broadcasts S64x384
  inb_S4x64x384_S1x64x384_0_0_0 : ∀ a, (![0, 0, 0] : Fin 3 → Nat) a + S1x64x384.size a ≤ S4x64x384.size a
  h_S1x64x384 : 0 < S1x64x384.numel
  shapeCasts_S1x64x384_S64x384 : S1x64x384.ShapeCasts S64x384
  shapeCasts_S64x384_S1x64x384 : S64x384.ShapeCasts S1x64x384
  inb_S4x384x4096_S1x384x4096_1_0_0 : ∀ a, (![1, 0, 0] : Fin 3 → Nat) a + S1x384x4096.size a ≤ S4x384x4096.size a
  inb_S4x64x384_S1x64x384_1_0_0 : ∀ a, (![1, 0, 0] : Fin 3 → Nat) a + S1x64x384.size a ≤ S4x64x384.size a
  inb_S4x384x4096_S1x384x4096_2_0_0 : ∀ a, (![2, 0, 0] : Fin 3 → Nat) a + S1x384x4096.size a ≤ S4x384x4096.size a
  inb_S4x64x384_S1x64x384_2_0_0 : ∀ a, (![2, 0, 0] : Fin 3 → Nat) a + S1x64x384.size a ≤ S4x64x384.size a
  inb_S4x384x4096_S1x384x4096_3_0_0 : ∀ a, (![3, 0, 0] : Fin 3 → Nat) a + S1x384x4096.size a ≤ S4x384x4096.size a
  inb_S4x64x384_S1x64x384_3_0_0 : ∀ a, (![3, 0, 0] : Fin 3 → Nat) a + S1x64x384.size a ≤ S4x64x384.size a
  dot_S64x4096_S384x4096_S64x384_1_1_0_0_n_n_wf : DotDims.WF S64x4096 S384x4096 S64x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x384x4096.size a < S4x4096x4096.size a
  hwx0_0 : ∀ i : grid0.Coords, EltTy.bits .f32 = 32 ∨ (Rect.unit (s := S4x4096x4096) (fun a => cc0_transform_0 i a * S4x384x4096.size a) (fun a => (Pipeline.Clip.of (cc0_transform_0 i a) (S4x384x4096.size a) (S4x4096x4096.size a)).extent (S4x384x4096.size a)) fun a => Pipeline.Clip.inb (Pipeline.Clip.ok_of (hstart0_0 i a))).WholeWords (EltTy.packing .f32)
  hwxs0_0 : ∀ i : grid0.Coords, EltTy.bits .f32 = 32 ∨ (Rect.unit (s := S4x384x4096) (fun _ => 0) (fun a => (Pipeline.Clip.of (cc0_transform_0 i a) (S4x384x4096.size a) (S4x4096x4096.size a)).extent (S4x384x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x64x384.size a < S4x64x4096.size a
  hwx0_2 : ∀ i : grid0.Coords, EltTy.bits .f32 = 32 ∨ (Rect.unit (s := S4x64x4096) (fun a => cc0_transform_2 i a * S4x64x384.size a) (fun a => (Pipeline.Clip.of (cc0_transform_2 i a) (S4x64x384.size a) (S4x64x4096.size a)).extent (S4x64x384.size a)) fun a => Pipeline.Clip.inb (Pipeline.Clip.ok_of (hstart0_2 i a))).WholeWords (EltTy.packing .f32)
  hwxs0_2 : ∀ i : grid0.Coords, EltTy.bits .f32 = 32 ∨ (Rect.unit (s := S4x64x384) (fun _ => 0) (fun a => (Pipeline.Clip.of (cc0_transform_2 i a) (S4x64x384.size a) (S4x64x4096.size a)).extent (S4x64x384.size a)) fun a => (Nat.zero_add _).trans_le (Pipeline.Clip.extent_le (Pipeline.Clip.ok_of (hstart0_2 i a)))).WholeWords (EltTy.packing .f32)

variable [Facts₀]

def dot_S64x4096_S384x4096_S64x384_1_1_0_0_n_n : DotDims S64x4096 S384x4096 S64x384 where
  lhsContracting := [1]
  rhsContracting := [1]
  lhsNonContracting := [0]
  rhsNonContracting := [0]
  lhsBatch := []
  rhsBatch := []
  wf := dot_S64x4096_S384x4096_S64x384_1_1_0_0_n_n_wf

abbrev win0_0 : Pipeline.Window sig grid0 :=
  Pipeline.Window.ofSpecClip (Memref.whole main_arg0) S4x384x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v0) S4x64x384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  dot_S4x4096x4096_S64x4096_S4x4096x64_2_1_01_0_n_n_wf : DotDims.WF S4x4096x4096 S64x4096 S4x4096x64 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf

class Facts : Prop extends Facts₀ where

variable [Facts]
-- ==== Proof.KBody.lean ====
/-
  The router kernel's body as one step of separation logic, at any float instance.

  The body reads the whole table of expert embeddings and, for each of the four batch slabs in turn, one slab of
  token rows; it stores into the matching slab of the output block that slab's softmax columns. The four stores tile
  the output block, so what the block holds afterwards is a function of what the two input blocks held alone —
  `outBlk` — whatever it held before; the input blocks are left as they were.
-/
import proofs.«131706_g54193897341570_cont_sun_m_1179_17_alg».proof.Proof.Gen.Kernel.Launch
import proofs.«131706_g54193897341570_cont_sun_m_1179_17_alg».proof.Proof.Gen.Kernel.Skeleton
import proofs.«131706_g54193897341570_cont_sun_m_1179_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- The whole table. -/
abbrev rTab : Rect S64x4096 := Rect.unit (s := S64x4096) ![0, 0] S64x4096.size inb_S64x4096_S64x4096_0_0
/-- Batch slab `b` of the token block: rows [b, 0‥383, 0‥4095]. -/
abbrev rTok0 : Rect S4x384x4096 := Rect.unit (s := S4x384x4096) ![0, 0, 0] S1x384x4096.size inb_S4x384x4096_S1x384x4096_0_0_0
abbrev rTok1 : Rect S4x384x4096 := Rect.unit (s := S4x384x4096) ![1, 0, 0] S1x384x4096.size inb_S4x384x4096_S1x384x4096_1_0_0
abbrev rTok2 : Rect S4x384x4096 := Rect.unit (s := S4x384x4096) ![2, 0, 0] S1x384x4096.size inb_S4x384x4096_S1x384x4096_2_0_0
abbrev rTok3 : Rect S4x384x4096 := Rect.unit (s := S4x384x4096) ![3, 0, 0] S1x384x4096.size inb_S4x384x4096_S1x384x4096_3_0_0
/-- Batch slab `b` of the output block: [b, 0‥63, 0‥383]. -/
abbrev rOut0 : Rect S4x64x384 := Rect.unit (s := S4x64x384) ![0, 0, 0] S1x64x384.size inb_S4x64x384_S1x64x384_0_0_0
abbrev rOut1 : Rect S4x64x384 := Rect.unit (s := S4x64x384) ![1, 0, 0] S1x64x384.size inb_S4x64x384_S1x64x384_1_0_0
abbrev rOut2 : Rect S4x64x384 := Rect.unit (s := S4x64x384) ![2, 0, 0] S1x64x384.size inb_S4x64x384_S1x64x384_2_0_0
abbrev rOut3 : Rect S4x64x384 := Rect.unit (s := S4x64x384) ![3, 0, 0] S1x64x384.size inb_S4x64x384_S1x64x384_3_0_0

/-! ## What the body leaves in the output block -/

/-- The output block after the body, from the token block `x0` and the table `x1`: its four slab stores, the last
    first; slab `b` is the softmax payload of the table and of slab `b` of the tokens. -/
def outBlk (x0 : Vec F S4x384x4096 .f32) (x1 : Vec F S64x4096 .f32) : Vec F S4x64x384 .f32 :=
  View.canon
    [⟨rOut3, k0_pay2 (View.ld x1 rTab) (View.ld x0 rTok3)⟩,
     ⟨rOut2, k0_pay1 (View.ld x1 rTab) (k0_pay5 (View.ld x0 rTok2)) (constant S64x384 .f32 0x00000000#32)⟩,
     ⟨rOut1, k0_pay4 (View.ld x1 rTab) (View.ld x0 rTok1)⟩,
     ⟨rOut0, k0_pay3 (View.ld x1 rTab) (View.ld x0 rTok0)⟩]

/-- The four slabs tile the block, so every index of it lies in one of them. -/
theorem cover_out (p3 p2 p1 p0 : Vec F S1x64x384 .f32) (y : S4x64x384.Idx) :
    ∃ pc ∈ ([⟨rOut3, p3⟩, ⟨rOut2, p2⟩, ⟨rOut1, p1⟩, ⟨rOut0, p0⟩] : List (View.Piece (Elt F) S4x64x384 .f32)), y ∈ pc.1.set :=
  View.cover_of_tiled [⟨rOut3, p3⟩, ⟨rOut2, p2⟩, ⟨rOut1, p1⟩, ⟨rOut0, p0⟩] S1x64x384.size (by rfl) y

/-! ## The body's triple -/

set_option maxHeartbeats 4000000 in
/-- The body on whole staging memrefs — the token block's at `x0`, the table's at `x1`, the output block's at anything —
    runs to the continuation with the two inputs as they were and the output block at `outBlk x0 x1`. -/
theorem sound_kernel (c : Dev nD) (E : Set ℕ) (i : grid0.Coords)
    (arg1 : Memref sig .tc .vmem S4x384x4096 .f32) (harg1 : arg1.IsWhole)
    (arg2 : Memref sig .tc .vmem S64x4096 .f32) (harg2 : arg2.IsWhole)
    (arg3 : Memref sig .tc .vmem S4x64x384 .f32) (harg3 : arg3.IsWhole)
    (x0 : Vec F S4x384x4096 .f32) (x1 : Vec F S64x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__router_kernel i arg1 harg1 arg2 harg2 arg3 harg3) K := by
  simp only [cc0__router_kernel_eq_skeleton]; unfold cc0__router_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _ _ _)

end Cert.Kernel.Body

end
-- ==== Proof.KFrame.lean ====
/-
  The frame of the router kernel's word-level program, at any float instance.

  The program is one pipelined region on a grid of eleven points followed by a transpose of the region's result
  into a buffer of its own. The token array is read in blocks of 384 rows; the last block overhangs the array by
  128 rows, so the staging buffer's tail there holds words nothing names, and the body's matrix product carries
  them into the output block. The frame claims nothing of the output: its window is forgotten (handed to the body
  at any contents and taken back at any contents), the two input windows are stated exactly, and the input arrays,
  which no transfer writes, end at what they held.
-/
import proofs.«131706_g54193897341570_cont_sun_m_1179_17_alg».proof.Proof.KBody
import proofs.«131706_g54193897341570_cont_sun_m_1179_17_alg».proof.Proof.Gen.Kernel.Frame
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The token block at point `t`: its rows inside the array as read off the array, the rows past the array's end
    (at the last point) at the zero word, which nothing reads. -/
def tokBlk (c : Dev nD) (t : Fin cfg0.N) : S4x384x4096.Idx → Elt F .f32 :=
  win0_0.fill (grid0.coords t) (fun _ => Scalar.ofBits .f32 0#32) (iblk m c 0 t)

/-- The proof data of the pipeline on core `c`: the arrays as the region finds them; after the body the token
    window's buffer at the token block, the table's at the table, the output's unnamed; the region invariant the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tokBlk m c t
    | ⟨1, _⟩ => iblk m c 1 t
    | ⟨2, _⟩ => Dat.unnamed 2 t
  Φ _ := Pipeline.ΦA spec0 c
  q _ := fullShare
  owed _ := 0

/-- The output window is the one forgotten. -/
abbrev fgt : Fin cfg0.W → Bool :=
  fun | 0 => false | 1 => false | 2 => true | ⟨_ + 3, h⟩ => absurd h (Nat.not_lt.2 (Nat.le_add_left _ _))

theorem A_eq (c : Dev nD) (w : Fin cfg0.W) : (dats m 0 c).A w = V m c (Pipeline.arrRef spec0 w) := by
  dsimp only [dats]

theorem after_tok (c : Dev nD) (t : Fin cfg0.N) : (dats m 0 c).after 0 t = tokBlk m c t := by dsimp only [dats]
theorem after_tab (c : Dev nD) (t : Fin cfg0.N) : (dats m 0 c).after 1 t = iblk m c 1 t := by dsimp only [dats]

/-- The token window is fetched at every point: its buffer holds the block's rows inside the array, and past them
    whatever the overwrite before the fetch left. -/
theorem before_tok (c : Dev nD) (t : Fin cfg0.N) (d) :
    (dats m 0 c).before 0 t d = win0_0.fill (grid0.coords t) d (iblk m c 0 t) := by
  unfold Dat.before; rw [if_pos (fetch0_0 t)]; rfl

/-- The table's buffer holds the table at every point. -/
theorem before_tab (c : Dev nD) (t : Fin cfg0.N) (d) : (dats m 0 c).before 1 t d = iblk m c 1 t :=
  before0_1_of m (dats m 0 c) (A_eq m c 1) (after_tab m c) t d

/-! ## The body obligation -/

/-- At every point: the body is handed the token window's buffer at the block's rows inside the array filled out
    with whatever lay past them, the table's buffer at the table and the output's at anything; it leaves the two
    inputs as they were and the output at a function of them. The token buffer goes back stated on the rows inside
    the array (cutting the filled block gives the block back), the table's as it is, the output's at anything. -/
theorem body_obligation (c : Dev nD) :
    BodyObligationLoose (dats (F := F) m 0 c) (defs₀ (F := F)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_tok m c t d0, before_tab m c t d1]
  iapply (Body.sound_kernel (F := F) c Set.univ (grid0.coords t) _ _ _ _ _ _
    (win0_0.fill (grid0.coords t) d0 (iblk m c 0 t)) (iblk m c 1 t) _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]
  · iexists d0
    rw [after_tok]; unfold tokBlk
    rw [Window.cut_fill]
    iexact H0
  isplitl [H1]
  · rw [after_tab]; iexact H1
  · iexists _; iexact H2

/-! ## The line after the region -/

/-- The transpose after the region writes its own result buffer and no other. -/
theorem sfx_writes : ∀ ops ∈ ([hostOps1] : List (List (HloOp τ sig (Elt F)))), ∀ op ∈ ops,
    ∀ b : Ref sig .tc, Proc.devRef .tc b ∈ op.writes → b ∈ ({main_v0} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

/-! ## The run and the frame -/

set_option backward.isDefEq.respectTransparency.types false in
/-- From any memory with zero counters every weakly fair execution of the program terminates, and in every final
    state each array of the pipeline holds contents its write-backs may have left — an input array, which has none,
    its entry contents — and every other buffer but the transpose's result what it held. -/
theorem run_main : θ_run defs (onTc (τ := τ) (main (F := F))) (s₀ m ρ)
    (RDat.FramePostR cfg0 (fun c => (dats m 0 c).toRForget fgt) {main_v0} (V m)) :=
  Pipeline.RDat.θ_run_frame_around_T cfgs (0 : Fin 1) launch0 defs₀ Variants.none
    (fun c => (dats m 0 c).toRForget fgt) {main_v0} m ρ main
    (hbody := fun c => (body_obligation m c).toRForget)
    (hshare := fun c => Pipeline.RDat.share_full _ fun _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME: the program runs, and its two argument arrays end at what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePostR.arr_in h c 0 rfl).trans ((A_eq m c 0).trans (V_main_arg0 m c)),
     (Pipeline.RDat.FramePostR.arr_in h c 1 rfl).trans ((A_eq m c 1).trans (V_main_arg1 m c))⟩) (run_main m ρ)

end Cert.Kernel.Run

end
-- ==== Proof.KIBody.lean ====
/-
  The router kernel's body as one step of separation logic, at any float instance.

  The body reads the whole table of expert embeddings and, for each of the four batch slabs in turn, one slab of
  token rows; it stores into the matching slab of the output block that slab's softmax columns. The four stores tile
  the output block, so what the block holds afterwards is a function of what the two input blocks held alone —
  `outBlk` — whatever it held before; the input blocks are left as they were.
-/
import proofs.«131706_g54193897341570_cont_sun_m_1179_17_alg».proof.Proof.Gen.KernelIdeal.Launch
import proofs.«131706_g54193897341570_cont_sun_m_1179_17_alg».proof.Proof.Gen.KernelIdeal.Skeleton
import proofs.«131706_g54193897341570_cont_sun_m_1179_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- The whole table. -/
abbrev rTab : Rect S64x4096 := Rect.unit (s := S64x4096) ![0, 0] S64x4096.size inb_S64x4096_S64x4096_0_0
/-- Batch slab `b` of the token block: rows [b, 0‥383, 0‥4095]. -/
abbrev rTok0 : Rect S4x384x4096 := Rect.unit (s := S4x384x4096) ![0, 0, 0] S1x384x4096.size inb_S4x384x4096_S1x384x4096_0_0_0
abbrev rTok1 : Rect S4x384x4096 := Rect.unit (s := S4x384x4096) ![1, 0, 0] S1x384x4096.size inb_S4x384x4096_S1x384x4096_1_0_0
abbrev rTok2 : Rect S4x384x4096 := Rect.unit (s := S4x384x4096) ![2, 0, 0] S1x384x4096.size inb_S4x384x4096_S1x384x4096_2_0_0
abbrev rTok3 : Rect S4x384x4096 := Rect.unit (s := S4x384x4096) ![3, 0, 0] S1x384x4096.size inb_S4x384x4096_S1x384x4096_3_0_0
/-- Batch slab `b` of the output block: [b, 0‥63, 0‥383]. -/
abbrev rOut0 : Rect S4x64x384 := Rect.unit (s := S4x64x384) ![0, 0, 0] S1x64x384.size inb_S4x64x384_S1x64x384_0_0_0
abbrev rOut1 : Rect S4x64x384 := Rect.unit (s := S4x64x384) ![1, 0, 0] S1x64x384.size inb_S4x64x384_S1x64x384_1_0_0
abbrev rOut2 : Rect S4x64x384 := Rect.unit (s := S4x64x384) ![2, 0, 0] S1x64x384.size inb_S4x64x384_S1x64x384_2_0_0
abbrev rOut3 : Rect S4x64x384 := Rect.unit (s := S4x64x384) ![3, 0, 0] S1x64x384.size inb_S4x64x384_S1x64x384_3_0_0

/-! ## What the body leaves in the output block -/

/-- The output block after the body, from the token block `x0` and the table `x1`: its four slab stores, the last
    first; slab `b` is the softmax payload of the table and of slab `b` of the tokens. -/
def outBlk (x0 : Vec F S4x384x4096 .f32) (x1 : Vec F S64x4096 .f32) : Vec F S4x64x384 .f32 :=
  View.canon
    [⟨rOut3, k0_pay2 (View.ld x1 rTab) (View.ld x0 rTok3)⟩,
     ⟨rOut2, k0_pay1 (View.ld x1 rTab) (k0_pay5 (View.ld x0 rTok2)) (constant S64x384 .f32 0x00000000#32)⟩,
     ⟨rOut1, k0_pay4 (View.ld x1 rTab) (View.ld x0 rTok1)⟩,
     ⟨rOut0, k0_pay3 (View.ld x1 rTab) (View.ld x0 rTok0)⟩]

/-- The four slabs tile the block, so every index of it lies in one of them. -/
theorem cover_out (p3 p2 p1 p0 : Vec F S1x64x384 .f32) (y : S4x64x384.Idx) :
    ∃ pc ∈ ([⟨rOut3, p3⟩, ⟨rOut2, p2⟩, ⟨rOut1, p1⟩, ⟨rOut0, p0⟩] : List (View.Piece (Elt F) S4x64x384 .f32)), y ∈ pc.1.set :=
  View.cover_of_tiled [⟨rOut3, p3⟩, ⟨rOut2, p2⟩, ⟨rOut1, p1⟩, ⟨rOut0, p0⟩] S1x64x384.size (by rfl) y

/-! ## The body's triple -/

set_option maxHeartbeats 4000000 in
/-- The body on whole staging memrefs — the token block's at `x0`, the table's at `x1`, the output block's at anything —
    runs to the continuation with the two inputs as they were and the output block at `outBlk x0 x1`. -/
theorem sound_kernel (c : Dev nD) (E : Set ℕ) (i : grid0.Coords)
    (arg1 : Memref sig .tc .vmem S4x384x4096 .f32) (harg1 : arg1.IsWhole)
    (arg2 : Memref sig .tc .vmem S64x4096 .f32) (harg2 : arg2.IsWhole)
    (arg3 : Memref sig .tc .vmem S4x64x384 .f32) (harg3 : arg3.IsWhole)
    (x0 : Vec F S4x384x4096 .f32) (x1 : Vec F S64x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__router_kernel i arg1 harg1 arg2 harg2 arg3 harg3) K := by
  simp only [cc0__router_kernel_eq_skeleton]; unfold cc0__router_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _ _ _)

end Cert.KernelIdeal.Body

end
-- ==== Proof.Spec.lean ====
/-
  The router's mathematics, stated once over literal shapes at the ideal instance.

  For one token (a row of 4096 features) and the table of 64 expert embeddings, the logit of expert `e` is the
  contraction of that expert's embedding with the token's features; the token's probabilities are the softmax of its
  64 logits, taken the numerically stable way: subtract the largest logit (a maximum folded from the word of minus
  infinity), exponentiate, divide by the sum of the 64 exponentials. Nothing of one token's result depends on any
  other token's features: `colSoft` takes the one row.

  `soft` lays these probabilities out token-major, [batch, token, expert]; `softT` expert-major,
  [batch, expert, token]. The two are one function read through a swap of the last two coordinates.
-/
import Idealize.ShloMosaic.PureOps.Ideal
import Idealize.ShloMosaic.Lib.ValueIdx

noncomputable section

namespace Cert.Router

open Idealize.ShloMosaic Idealize.ShloMosaic.ValueIdx

/-- The word of minus infinity, the seed of both programs' maxima. It is never evaluated: both sides carry it. -/
abbrev negInf : EReal := Ideal.ofBits .f32 0xFF800000#32

/-- The 64 logits of one token: expert `e`'s embedding contracted with the token's features. -/
def logits (wv : (⟨2, ![64, 4096]⟩ : Shape).Idx → EReal) (row : Fin 4096 → EReal) (e : Fin 64) : EReal :=
  ∑ k : Fin 4096, wv (ix2 e k) * row k

/-- The largest logit of the token, folded from minus infinity. -/
def top (wv : (⟨2, ![64, 4096]⟩ : Shape).Idx → EReal) (row : Fin 4096 → EReal) : EReal :=
  (Finset.univ : Finset (Fin 64)).fold max negInf (logits wv row)

/-- The shifted exponential of expert `e`'s logit. -/
def expo (wv : (⟨2, ![64, 4096]⟩ : Shape).Idx → EReal) (row : Fin 4096 → EReal) (e : Fin 64) : EReal :=
  Ideal.exp (logits wv row e - top wv row)

/-- One token's probability of expert `e`: its shifted exponential over the sum of all 64. -/
def colSoft (wv : (⟨2, ![64, 4096]⟩ : Shape).Idx → EReal) (row : Fin 4096 → EReal) (e : Fin 64) : EReal :=
  Ideal.div (expo wv row e) (∑ e' : Fin 64, expo wv row e')

/-- The probabilities token-major: entry (b, s, e) is token (b, s)'s probability of expert e. -/
def soft (x : (⟨3, ![4, 4096, 4096]⟩ : Shape).Idx → EReal) (wv : (⟨2, ![64, 4096]⟩ : Shape).Idx → EReal) :
    (⟨3, ![4, 4096, 64]⟩ : Shape).Idx → EReal :=
  fun i => colSoft wv (fun k => x (ix3 (i 0) (i 1) k)) (i 2)

/-- The probabilities expert-major: entry (b, e, s) is token (b, s)'s probability of expert e. -/
def softT (x : (⟨3, ![4, 4096, 4096]⟩ : Shape).Idx → EReal) (wv : (⟨2, ![64, 4096]⟩ : Shape).Idx → EReal) :
    (⟨3, ![4, 64, 4096]⟩ : Shape).Idx → EReal :=
  fun i => colSoft wv (fun k => x (ix3 (i 0) (i 2) k)) (i 1)

/-- The seed is below the fold it starts: taking the maximum with it again changes nothing. -/
theorem max_negInf_top (wv : (⟨2, ![64, 4096]⟩ : Shape).Idx → EReal) (row : Fin 4096 → EReal) :
    max negInf (top wv row) = top wv row :=
  max_eq_right (Finset.le_fold_max negInf |>.mpr (Or.inl le_rfl))

end Cert.Router

end
-- ==== Proof.KIPayload.lean ====
/-
  The idealized kernel's store payloads, read at an index.

  Each of the four payloads is one computation on a block of 384 tokens: the 64 x 4096 table of expert embeddings is
  contracted with every row of the 384 x 4096 slab of token features (a 64 x 384 block of logits, expert-major); down
  each column (one token) the largest logit is folded from minus infinity, every logit of the column is shifted by it
  and exponentiated, and every exponential is divided by the column's sum. Entry (0, e, s) of the result therefore
  depends on row s of the slab alone: it is the stable softmax of token s's 64 logits, read at expert e.
-/
import proofs.«131706_g54193897341570_cont_sun_m_1179_17_alg».proof.Proof.Gen.KernelIdeal.Skeleton
import proofs.«131706_g54193897341570_cont_sun_m_1179_17_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Idealize.ShloMosaic Idealize.ShloMosaic.ValueIdx Cert.KernelIdeal Cert.KernelIdeal.Gen

/-! ## The computation the payloads share -/

/-- The block of logits, expert-major: the table contracted with every row of the slab, into the zero block. -/
def scores (v0 : Vec Ideal S64x4096 .f32) (m2 : FVec Ideal S384x4096 .f32) : FVec Ideal S64x384 .f32 :=
  matmul (φ₁ := .f32) (φ₂ := .f32) dot_S64x4096_S384x4096_S64x384_1_1_0_0_n_n none v0 m2 (constant (F := Ideal) S64x384 .f32 0x00000000#32)

/-- Every column's maximum, folded from minus infinity, repeated down the column. -/
def colMax (x : FVec Ideal S64x384 .f32) : FVec Ideal S64x384 .f32 :=
  broadcastTo S64x384
    (shapeCast S1x384 (multiReduction (F := Ideal) .maximumf [0] S384 x 0xFF800000#32 reduces_S64x384_S384 (.inl rfl) rfl)
      shapeCasts_S384_S1x384)
    broadcasts_S1x384_S64x384

/-- Every column's sum, repeated down the column. -/
def colSum (x : FVec Ideal S64x384 .f32) : FVec Ideal S64x384 .f32 :=
  broadcastTo S64x384
    (shapeCast S1x384 (multiReduction (F := Ideal) .add [0] S384 x 0x00000000#32 reduces_S64x384_S384 (.inl rfl) rfl)
      shapeCasts_S384_S1x384)
    broadcasts_S1x384_S64x384

/-- The exponentials of a block shifted, column by column, by the column's maximum. -/
def shifted (x : FVec Ideal S64x384 .f32) : FVec Ideal S64x384 .f32 :=
  exp (subf x (colMax x))

/-- The column-wise stable softmax of a block, under one leading unit axis. -/
def softCols (x : FVec Ideal S64x384 .f32) : FVec Ideal S1x64x384 .f32 :=
  shapeCast S1x64x384 (divf (shifted x) (colSum (shifted x))) shapeCasts_S64x384_S1x64x384

/-- What every payload computes from the table and a 384 x 4096 slab. -/
def softOf (v0 : Vec Ideal S64x4096 .f32) (m2 : FVec Ideal S384x4096 .f32) : FVec Ideal S1x64x384 .f32 :=
  softCols (scores v0 m2)

theorem pay3_eq (v0 : Vec Ideal S64x4096 .f32) (v1 : Vec Ideal S1x384x4096 .f32) :
    k0_pay3 (F := Ideal) v0 v1 = softOf v0 (shapeCast S384x4096 v1 shapeCasts_S1x384x4096_S384x4096) := rfl

theorem pay4_eq (v0 : Vec Ideal S64x4096 .f32) (v1 : Vec Ideal S1x384x4096 .f32) :
    k0_pay4 (F := Ideal) v0 v1 = softOf v0 (shapeCast S384x4096 v1 shapeCasts_S1x384x4096_S384x4096) := rfl

theorem pay2_eq (v0 : Vec Ideal S64x4096 .f32) (v1 : Vec Ideal S1x384x4096 .f32) :
    k0_pay2 (F := Ideal) v0 v1 = softOf v0 (shapeCast S384x4096 v1 shapeCasts_S1x384x4096_S384x4096) := rfl

theorem pay1_eq (v0 : Vec Ideal S64x4096 .f32) (m2 : FVec Ideal S384x4096 .f32) :
    k0_pay1 (F := Ideal) v0 m2 (constant (F := Ideal) S64x384 .f32 0x00000000#32) = softOf v0 m2 := rfl

theorem pay5_eq (v31 : Vec Ideal S1x384x4096 .f32) :
    k0_pay5 (F := Ideal) v31 = shapeCast S384x4096 v31 shapeCasts_S1x384x4096_S384x4096 := rfl

/-! ## The block of logits at an index -/

theorem lhs_scores_0 (i : S64x384.Idx) (q : dot_S64x4096_S384x4096_S64x384_1_1_0_0_n_n.contr.Idx) :
    (dot_S64x4096_S384x4096_S64x384_1_1_0_0_n_n.lhsIdx i q 0).val = (i 0).val := by
  unfold DotDims.lhsIdx
  rw [dif_neg (show ¬(0 : Fin S64x4096.rank) ∈ dot_S64x4096_S384x4096_S64x384_1_1_0_0_n_n.lhsBatch by decide), dif_pos (show (0 : Fin S64x4096.rank) ∈ dot_S64x4096_S384x4096_S64x384_1_1_0_0_n_n.lhsNonContracting by decide)]
  rfl
theorem lhs_scores_1 (i : S64x384.Idx) (q : dot_S64x4096_S384x4096_S64x384_1_1_0_0_n_n.contr.Idx) :
    (dot_S64x4096_S384x4096_S64x384_1_1_0_0_n_n.lhsIdx i q 1).val = (q ⟨0, by decide⟩).val :=
  dot_S64x4096_S384x4096_S64x384_1_1_0_0_n_n.lhsIdx_val_of_single rfl i q
theorem rhs_scores_0 (i : S64x384.Idx) (q : dot_S64x4096_S384x4096_S64x384_1_1_0_0_n_n.contr.Idx) :
    (dot_S64x4096_S384x4096_S64x384_1_1_0_0_n_n.rhsIdx i q 0).val = (i 1).val := by
  unfold DotDims.rhsIdx
  rw [dif_neg (show ¬(0 : Fin S384x4096.rank) ∈ dot_S64x4096_S384x4096_S64x384_1_1_0_0_n_n.rhsBatch by decide), dif_pos (show (0 : Fin S384x4096.rank) ∈ dot_S64x4096_S384x4096_S64x384_1_1_0_0_n_n.rhsNonContracting by decide)]
  rfl
theorem rhs_scores_1 (i : S64x384.Idx) (q : dot_S64x4096_S384x4096_S64x384_1_1_0_0_n_n.contr.Idx) :
    (dot_S64x4096_S384x4096_S64x384_1_1_0_0_n_n.rhsIdx i q 1).val = (q ⟨0, by decide⟩).val :=
  dot_S64x4096_S384x4096_S64x384_1_1_0_0_n_n.rhsIdx_val_of_single rfl i q

/-- Entry (e, s) of the block of logits is expert e's embedding contracted with row s of the slab. -/
theorem scores_apply (v0 : Vec Ideal S64x4096 .f32) (m2 : FVec Ideal S384x4096 .f32) (e : Fin 64) (s : Fin 384) :
    scores v0 m2 (ix2 e s) = ∑ k : Fin 4096, v0 (ix2 e k) * m2 (ix2 s k) := by
  unfold scores
  simp only [matmul]
  rw [Ideal.matmul_constant_zero_apply, ← Equiv.sum_comp (ValueIdx.contrEquiv1 dot_S64x4096_S384x4096_S64x384_1_1_0_0_n_n 4096 rfl rfl).symm]
  refine Finset.sum_congr rfl fun k _ => ?_
  have hk := ValueIdx.contrEquiv1_symm_val dot_S64x4096_S384x4096_S64x384_1_1_0_0_n_n 4096 rfl rfl k
  have el : dot_S64x4096_S384x4096_S64x384_1_1_0_0_n_n.lhsIdx (ix2 e s) ((ValueIdx.contrEquiv1 dot_S64x4096_S384x4096_S64x384_1_1_0_0_n_n 4096 rfl rfl).symm k) = ix2 e k := funext fun a => Fin.ext (by
    match a with
    | ⟨0, _⟩ => exact lhs_scores_0 _ _
    | ⟨1, _⟩ => exact (lhs_scores_1 _ _).trans hk)
  have er : dot_S64x4096_S384x4096_S64x384_1_1_0_0_n_n.rhsIdx (ix2 e s) ((ValueIdx.contrEquiv1 dot_S64x4096_S384x4096_S64x384_1_1_0_0_n_n 4096 rfl rfl).symm k) = ix2 s k := funext fun a => Fin.ext (by
    match a with
    | ⟨0, _⟩ => exact rhs_scores_0 _ _
    | ⟨1, _⟩ => exact (rhs_scores_1 _ _).trans hk)
  rw [el, er]

/-! ## The column reductions at an index -/

/-- The source index of a column reduction: coordinate `k` put back on the folded axis of column `s`. -/
theorem lift_col (s : Fin 384) (k : Fin 64) : reduces_S64x384_S384.lift (ix1 s) k = ix2 k s :=
  funext fun a => Fin.ext (by match a with | ⟨0, _⟩ => rfl | ⟨1, _⟩ => rfl)

/-- The repeated column maximum at (e, s) is the fold of column s from minus infinity. -/
theorem colMax_apply (x : FVec Ideal S64x384 .f32) (e : Fin 64) (s : Fin 384) :
    colMax x (ix2 e s) = (Finset.univ : Finset (Fin 64)).fold max Cert.Router.negInf (fun e' => x (ix2 e' s)) := by
  unfold colMax
  refine (broadcastTo_1b_ab_apply _ broadcasts_S1x384_S64x384 e s).trans ?_
  refine (shapeCast_a_1a_apply _ shapeCasts_S384_S1x384 (0 : Fin 1) s).trans ?_
  refine (Ideal.multiReduction_maximumf_single x 0xFF800000#32 reduces_S64x384_S384 (.inl rfl) rfl (ix1 s)).trans ?_
  exact congrArg (fun f : Fin 64 → EReal => (Finset.univ : Finset (Fin 64)).fold max Cert.Router.negInf f)
    (funext fun k => congrArg x (lift_col s k))

/-- The repeated column sum at (e, s) is the sum of column s. -/
theorem colSum_apply (x : FVec Ideal S64x384 .f32) (e : Fin 64) (s : Fin 384) :
    colSum x (ix2 e s) = ∑ e' : Fin 64, x (ix2 e' s) := by
  unfold colSum
  refine (broadcastTo_1b_ab_apply _ broadcasts_S1x384_S64x384 e s).trans ?_
  refine (shapeCast_a_1a_apply _ shapeCasts_S384_S1x384 (0 : Fin 1) s).trans ?_
  refine (Ideal.multiReduction_add_single x 0x00000000#32 reduces_S64x384_S384 (.inl rfl) rfl (ix1 s)).trans ?_
  exact Finset.sum_congr rfl fun k _ => congrArg x (lift_col s k)

/-! ## The softmax of a block's columns at an index -/

/-- The shifted exponential at (e, s): the entry less its column's maximum, exponentiated. -/
theorem shifted_apply (x : FVec Ideal S64x384 .f32) (e : Fin 64) (s : Fin 384) :
    shifted x (ix2 e s)
      = Ideal.exp (x (ix2 e s) - (Finset.univ : Finset (Fin 64)).fold max Cert.Router.negInf (fun e' => x (ix2 e' s))) := by
  unfold shifted
  show Ideal.exp (x (ix2 e s) - colMax x (ix2 e s)) = _
  rw [colMax_apply]

/-- The softmax at (0, e, s): column s's shifted exponential at e over the column's sum of them. -/
theorem softCols_apply (x : FVec Ideal S64x384 .f32) (e : Fin 64) (s : Fin 384) :
    softCols x (ix3 (0 : Fin 1) e s) = Ideal.div (shifted x (ix2 e s)) (∑ e' : Fin 64, shifted x (ix2 e' s)) := by
  unfold softCols
  refine (shapeCast_ab_1ab_apply _ shapeCasts_S64x384_S1x64x384 (0 : Fin 1) e s).trans ?_
  show Ideal.div (shifted x (ix2 e s)) (colSum (shifted x) (ix2 e s)) = _
  rw [colSum_apply]

/-- Entry (0, e, s) of the shared computation is the softmax of token s's logits at expert e: of the slab it reads row s
    alone. -/
theorem softOf_apply (v0 : Vec Ideal S64x4096 .f32) (m2 : FVec Ideal S384x4096 .f32) (e : Fin 64) (s : Fin 384) :
    softOf v0 m2 (ix3 (0 : Fin 1) e s) = Cert.Router.colSoft v0 (fun k => m2 (ix2 s k)) e := by
  have hl : ∀ e' : Fin 64, scores v0 m2 (ix2 e' s) = Cert.Router.logits v0 (fun k => m2 (ix2 s k)) e' :=
    fun e' => scores_apply v0 m2 e' s
  have hf : (fun e' : Fin 64 => scores v0 m2 (ix2 e' s)) = Cert.Router.logits v0 (fun k => m2 (ix2 s k)) := funext hl
  have hs : ∀ e' : Fin 64, shifted (scores v0 m2) (ix2 e' s) = Cert.Router.expo v0 (fun k => m2 (ix2 s k)) e' := fun e' => by
    rw [shifted_apply, hf, hl]
    rfl
  unfold softOf
  rw [softCols_apply, hs e]
  exact congrArg (Ideal.div _) (Finset.sum_congr rfl fun e' _ => hs e')

/-! ## The four payloads -/

/-- Row s of a slab under its leading unit axis, read through the cast that drops the axis. -/
theorem row_dropUnit (v : Vec Ideal S1x384x4096 .f32) (s : Fin 384) :
    (fun k : Fin 4096 => shapeCast S384x4096 v shapeCasts_S1x384x4096_S384x4096 (ix2 s k)) = fun k => v (ix3 (0 : Fin 1) s k) :=
  funext fun k => shapeCast_1ab_ab_apply v shapeCasts_S1x384x4096_S384x4096 s k

theorem pay3_apply (v0 : Vec Ideal S64x4096 .f32) (v1 : Vec Ideal S1x384x4096 .f32) (e : Fin 64) (s : Fin 384) :
    k0_pay3 (F := Ideal) v0 v1 (ix3 (0 : Fin 1) e s) = Cert.Router.colSoft v0 (fun k => v1 (ix3 (0 : Fin 1) s k)) e :=
  ((congrFun (pay3_eq v0 v1) _).trans (softOf_apply v0 _ e s)).trans
    (congrArg (fun row => Cert.Router.colSoft v0 row e) (row_dropUnit v1 s))

theorem pay4_apply (v0 : Vec Ideal S64x4096 .f32) (v1 : Vec Ideal S1x384x4096 .f32) (e : Fin 64) (s : Fin 384) :
    k0_pay4 (F := Ideal) v0 v1 (ix3 (0 : Fin 1) e s) = Cert.Router.colSoft v0 (fun k => v1 (ix3 (0 : Fin 1) s k)) e :=
  ((congrFun (pay4_eq v0 v1) _).trans (softOf_apply v0 _ e s)).trans
    (congrArg (fun row => Cert.Router.colSoft v0 row e) (row_dropUnit v1 s))

theorem pay2_apply (v0 : Vec Ideal S64x4096 .f32) (v1 : Vec Ideal S1x384x4096 .f32) (e : Fin 64) (s : Fin 384) :
    k0_pay2 (F := Ideal) v0 v1 (ix3 (0 : Fin 1) e s) = Cert.Router.colSoft v0 (fun k => v1 (ix3 (0 : Fin 1) s k)) e :=
  ((congrFun (pay2_eq v0 v1) _).trans (softOf_apply v0 _ e s)).trans
    (congrArg (fun row => Cert.Router.colSoft v0 row e) (row_dropUnit v1 s))

theorem pay1_apply (v0 : Vec Ideal S64x4096 .f32) (v31 : Vec Ideal S1x384x4096 .f32) (e : Fin 64) (s : Fin 384) :
    k0_pay1 (F := Ideal) v0 (k0_pay5 (F := Ideal) v31) (constant (F := Ideal) S64x384 .f32 0x00000000#32) (ix3 (0 : Fin 1) e s)
      = Cert.Router.colSoft v0 (fun k => v31 (ix3 (0 : Fin 1) s k)) e :=
  ((congrFun (pay1_eq v0 (k0_pay5 (F := Ideal) v31)) _).trans (softOf_apply v0 _ e s)).trans
    (congrArg (fun row => Cert.Router.colSoft v0 row e) (row_dropUnit v31 s))

end Cert.KernelIdeal.Pay

end
-- ==== Proof.KIBlock.lean ====
/-
  The output block the body leaves, read at an index, at the ideal instance: entry (b, e, s) of the block is the
  softmax of the table against ROW (b, s) of the token block alone — no other row of the token block enters it.

  The block is four slab stores; slab `b`'s payload is the softmax payload of the table and of slab `b` of the token
  block, and that payload at (e, s) is `colSoft` of the table and of row `s` of the slab. So each store's payload is the
  one function `G (b, e, s) = colSoft table (row (b, s)) e` read through the store's rectangle, and the canon of stores
  that all agree with one function is that function wherever some store covers.
-/
import proofs.«131706_g54193897341570_cont_sun_m_1179_17_alg».proof.Proof.KIBody
import proofs.«131706_g54193897341570_cont_sun_m_1179_17_alg».proof.Proof.KIPayload
import proofs.«131706_g54193897341570_cont_sun_m_1179_17_alg».proof.Proof.Spec
import Idealize.ShloMosaic.Lib.ValueIdx
import Idealize.ShloMosaic.Lib.Pipeline.Value

set_option maxRecDepth 16384

noncomputable section

namespace Cert.KernelIdeal.Block

open Cert.KernelIdeal Cert.KernelIdeal.Gen Cert.KernelIdeal.Body
open Idealize.ShloMosaic Idealize.ShloMosaic.ValueIdx
open Cert.Router

theorem zeros2 : (![0, 0] : Fin 2 → Nat) = fun _ => 0 := funext fun a => by fin_cases a <;> rfl

/-- A load of the whole table reads the table. -/
theorem ld_tab (x1 : Vec Ideal S64x4096 .f32) : View.ld x1 rTab = x1 :=
  View.ld_unit_zero (S := S64x4096) zeros2 _ x1

/-- The one function every slab store agrees with. -/
def G (x0 : Vec Ideal S4x384x4096 .f32) (x1 : Vec Ideal S64x4096 .f32) : S4x64x384.Idx → Elt Ideal .f32 :=
  fun j => colSoft x1 (fun k => x0 (ix3 (j 0) (j 2) k)) (j 1)

/-- Slab 0's store agrees with `G`: its payload at (0, e, s) is the softmax of the table against row (0, s) of the token block. -/
theorem slab0 (x0 : Vec Ideal S4x384x4096 .f32) (x1 : Vec Ideal S64x4096 .f32) (x : S1x64x384.Idx) :
    k0_pay3 (F := Ideal) (View.ld x1 rTab) (View.ld x0 rTok0) x = G x0 x1 (rOut0.emb x) := by
  obtain ⟨e, s, rfl⟩ : ∃ (e : Fin 64) (s : Fin 384), x = ix3 (0 : Fin 1) e s :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  rw [ld_tab, Pay.pay3_apply]
  unfold G
  refine congrArg₂ (fun row e' => colSoft x1 row e') (funext fun k => ?_) (Fin.ext ?_)
  · show x0 (rTok0.emb (ix3 (0 : Fin 1) s k)) = x0 (ix3 ((rOut0.emb (ix3 (0 : Fin 1) e s)) 0) ((rOut0.emb (ix3 (0 : Fin 1) e s)) 2) k)
    refine congrArg x0 (funext fun a => Fin.ext ?_)
    match a with
    | ⟨0, _⟩ => rfl
    | ⟨1, _⟩ => rfl
    | ⟨2, _⟩ => show 0 + 1 * k.val = k.val; omega
  · show e.val = 0 + 1 * e.val; omega

/-- Slab 1's store agrees with `G`: its payload at (0, e, s) is the softmax of the table against row (1, s) of the token block. -/
theorem slab1 (x0 : Vec Ideal S4x384x4096 .f32) (x1 : Vec Ideal S64x4096 .f32) (x : S1x64x384.Idx) :
    k0_pay4 (F := Ideal) (View.ld x1 rTab) (View.ld x0 rTok1) x = G x0 x1 (rOut1.emb x) := by
  obtain ⟨e, s, rfl⟩ : ∃ (e : Fin 64) (s : Fin 384), x = ix3 (0 : Fin 1) e s :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  rw [ld_tab, Pay.pay4_apply]
  unfold G
  refine congrArg₂ (fun row e' => colSoft x1 row e') (funext fun k => ?_) (Fin.ext ?_)
  · show x0 (rTok1.emb (ix3 (0 : Fin 1) s k)) = x0 (ix3 ((rOut1.emb (ix3 (0 : Fin 1) e s)) 0) ((rOut1.emb (ix3 (0 : Fin 1) e s)) 2) k)
    refine congrArg x0 (funext fun a => Fin.ext ?_)
    match a with
    | ⟨0, _⟩ => rfl
    | ⟨1, _⟩ => rfl
    | ⟨2, _⟩ => show 0 + 1 * k.val = k.val; omega
  · show e.val = 0 + 1 * e.val; omega

/-- Slab 2's store agrees with `G`: its payload at (0, e, s) is the softmax of the table against row (2, s) of the token block. -/
theorem slab2 (x0 : Vec Ideal S4x384x4096 .f32) (x1 : Vec Ideal S64x4096 .f32) (x : S1x64x384.Idx) :
    k0_pay1 (F := Ideal) (View.ld x1 rTab) (k0_pay5 (F := Ideal) (View.ld x0 rTok2)) (constant (F := Ideal) S64x384 .f32 0x00000000#32) x = G x0 x1 (rOut2.emb x) := by
  obtain ⟨e, s, rfl⟩ : ∃ (e : Fin 64) (s : Fin 384), x = ix3 (0 : Fin 1) e s :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  rw [ld_tab, Pay.pay1_apply]
  unfold G
  refine congrArg₂ (fun row e' => colSoft x1 row e') (funext fun k => ?_) (Fin.ext ?_)
  · show x0 (rTok2.emb (ix3 (0 : Fin 1) s k)) = x0 (ix3 ((rOut2.emb (ix3 (0 : Fin 1) e s)) 0) ((rOut2.emb (ix3 (0 : Fin 1) e s)) 2) k)
    refine congrArg x0 (funext fun a => Fin.ext ?_)
    match a with
    | ⟨0, _⟩ => rfl
    | ⟨1, _⟩ => rfl
    | ⟨2, _⟩ => show 0 + 1 * k.val = k.val; omega
  · show e.val = 0 + 1 * e.val; omega

/-- Slab 3's store agrees with `G`: its payload at (0, e, s) is the softmax of the table against row (3, s) of the token block. -/
theorem slab3 (x0 : Vec Ideal S4x384x4096 .f32) (x1 : Vec Ideal S64x4096 .f32) (x : S1x64x384.Idx) :
    k0_pay2 (F := Ideal) (View.ld x1 rTab) (View.ld x0 rTok3) x = G x0 x1 (rOut3.emb x) := by
  obtain ⟨e, s, rfl⟩ : ∃ (e : Fin 64) (s : Fin 384), x = ix3 (0 : Fin 1) e s :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  rw [ld_tab, Pay.pay2_apply]
  unfold G
  refine congrArg₂ (fun row e' => colSoft x1 row e') (funext fun k => ?_) (Fin.ext ?_)
  · show x0 (rTok3.emb (ix3 (0 : Fin 1) s k)) = x0 (ix3 ((rOut3.emb (ix3 (0 : Fin 1) e s)) 0) ((rOut3.emb (ix3 (0 : Fin 1) e s)) 2) k)
    refine congrArg x0 (funext fun a => Fin.ext ?_)
    match a with
    | ⟨0, _⟩ => rfl
    | ⟨1, _⟩ => rfl
    | ⟨2, _⟩ => show 0 + 1 * k.val = k.val; omega
  · show e.val = 0 + 1 * e.val; omega

/-- Entry `j = (b, e, s)` of the output block is token row `(b, s)`'s probability of expert `e`. -/
theorem outBlk_apply (x0 : Vec Ideal S4x384x4096 .f32) (x1 : Vec Ideal S64x4096 .f32) (j : S4x64x384.Idx) :
    Body.outBlk (F := Ideal) x0 x1 j = Cert.Router.colSoft x1 (fun k => x0 (ix3 (j 0) (j 2) k)) (j 1) := by
  unfold Body.outBlk
  refine View.canon_apply_of_pieces (Val := Elt Ideal) (G x0 x1) _ ?_ j (Body.cover_out _ _ _ _ j)
  intro p hp x
  simp only [List.mem_cons, List.mem_nil_iff, or_false] at hp
  rcases hp with rfl | rfl | rfl | rfl
  · exact slab3 x0 x1 x
  · exact slab2 x0 x1 x
  · exact slab1 x0 x1 x
  · exact slab0 x0 x1 x

end Cert.KernelIdeal.Block

end
-- ==== Proof.KIRun.lean ====
/-
  The idealized kernel's run: the proof data of its one pipeline, the body's obligation at every grid point, and
  the run of the whole program — the region, then the host's transpose.

  The grid has eleven points. At point `t` the pipeline fetches rows 384·t ‥ 384·t + 383 of every batch slab of the
  token array into a staging block, and afterwards writes the body's output block back onto columns
  384·t ‥ 384·t + 383 of the expert-major result. The array has 4096 rows: the last point's block overhangs it by
  128, so its fetch lands 256 rows and leaves the other 128 rows of the staging block at words nothing names, and its
  write-back moves 256 columns. The body's output at a column depends on the token row of the same number alone
  (`Block.outBlk_apply`), so on the columns that are written back the unnamed rows do not matter: what the body
  leaves there is what it would leave had those rows held zeros. That is the contents the proof data names.
-/
import proofs.«131706_g54193897341570_cont_sun_m_1179_17_alg».proof.Proof.KIBlock
import proofs.«131706_g54193897341570_cont_sun_m_1179_17_alg».proof.Proof.Gen.KernelIdeal.Frame
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the transfers move at a point -/

/-- At every point the token window moves all four slabs and all 4096 features, the output window all four slabs and all
    64 experts; and the token window moves as many rows as the output window moves columns (384, at the last point 256). -/
theorem moved_sizes : ∀ t : Fin cfg0.N,
    win0_0.xsize (grid0.coords t) 0 = 4 ∧ win0_0.xsize (grid0.coords t) 2 = 4096
      ∧ win0_0.xsize (grid0.coords t) 1 = win0_2.xsize (grid0.coords t) 2
      ∧ win0_2.xsize (grid0.coords t) 0 = 4 ∧ win0_2.xsize (grid0.coords t) 1 = 64 :=
  (by decide +kernel : ∀ t : Fin grid0.N,
    win0_0.xsize (grid0.coords t) 0 = 4 ∧ win0_0.xsize (grid0.coords t) 2 = 4096
      ∧ win0_0.xsize (grid0.coords t) 1 = win0_2.xsize (grid0.coords t) 2
      ∧ win0_2.xsize (grid0.coords t) 0 = 4 ∧ win0_2.xsize (grid0.coords t) 1 = 64)

/-- On the part of a block a transfer moves, a filled block does not depend on what it was filled over. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-! ## The proof data -/

/-- The token block of point `t` as the proof data names it: the rows inside the array, zeros on the rows past its end. -/
def tokBlk (c : Dev nD) (t : Fin cfg0.N) : S4x384x4096.Idx → Elt Ideal .f32 :=
  win0_0.fill (grid0.coords t) (fun _ => (0 : EReal)) (iblk m c 0 t)

/-- The proof data of the one pipeline on core `c`: the arrays as the region finds them; after the body at point `t` the
    token block at `tokBlk`, the table at itself, the output block at the body's function of those two; the class's
    invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => tokBlk m c t
    | ⟨1, _⟩ => iblk m c 1 t
    | ⟨2, _⟩ => Body.outBlk (tokBlk m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = tokBlk m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = Body.outBlk (tokBlk m c t) (iblk m c 1 t) := by dsimp only [dats]

/-- The token window is fetched at every point: the body finds the rows inside the array, and anything past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

/-- The table is fetched once and left in place: the body finds it at every point. -/
theorem before_1 (c : Dev nD) (t : Fin cfg0.N) (d) : (dats m 0 c).before 1 t d = iblk m c 1 t :=
  before0_1_of m (dats m 0 c) (A_eq m c 1) (after_1 m c) t d

/-- On the columns written back, the body's output over a token block filled with anything is its output over the
    block filled with zeros: a column reads its own token row, and the rows under written-back columns are inside
    the array. -/
theorem cut_outBlk (c : Dev nD) (t : Fin cfg0.N) (d : S4x384x4096.Idx → Elt Ideal .f32) :
    win0_2.cut (grid0.coords t) (Body.outBlk (win0_0.fill (grid0.coords t) d (iblk m c 0 t)) (iblk m c 1 t))
      = win0_2.cut (grid0.coords t) (Body.outBlk (tokBlk m c t) (iblk m c 1 t)) := by
  funext j
  show Body.outBlk _ _ (win0_2.xinj (grid0.coords t) j) = Body.outBlk _ _ (win0_2.xinj (grid0.coords t) j)
  rw [Block.outBlk_apply, Block.outBlk_apply]
  refine congrArg (fun row => Cert.Router.colSoft _ row _) (funext fun k => ?_)
  unfold tokBlk
  refine fill_eq_of_moved win0_0 (grid0.coords t) _ _ _ ((win0_0.moved_iff _ _).mpr fun a => ?_)
  obtain ⟨h00, h02, h01, h20, h21⟩ := moved_sizes t
  match a with
  | ⟨0, _⟩ => have hj : (j 0).val < win0_2.xsize (grid0.coords t) 0 := (j 0).isLt; show (j 0).val < win0_0.xsize (grid0.coords t) 0; omega
  | ⟨1, _⟩ => have hj : (j 2).val < win0_2.xsize (grid0.coords t) 2 := (j 2).isLt; show (j 2).val < win0_0.xsize (grid0.coords t) 1; omega
  | ⟨2, _⟩ => have hk : k.val < 4096 := k.isLt; show k.val < win0_0.xsize (grid0.coords t) 2; omega

/-! ## The body's obligation -/

/-- At every point: the body finds the token block (rows inside the array, anything past them), the table, and the output
    block at anything; it leaves the first two as they were and the output block at its function of them, which on the
    written-back columns is the named one (`cut_outBlk`). -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (Body.sound_kernel (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after_0]; unfold tokBlk; rw [Window.cut_fill]
    iexact H0
  isplitl [H1]
  · rw [after_1]; iexact H1
  · iexists (Body.outBlk (win0_0.fill (grid0.coords t) d0 (iblk m c 0 t)) (iblk m c 1 t))
    rw [after_2, ← cut_outBlk m c t d0, Window.fill_cut]
    iexact H2

/-! ## The run and the frame -/

set_option backward.isDefEq.respectTransparency.types false in
/-- From any memory with zero counters every weakly fair execution of the program terminates, and every final state has
    the pipeline's arrays at what the proof data computes and every other buffer at what the host's transpose makes of
    those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its two argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.KIValue.lean ====
/-
  What the idealized kernel computes: its result array, index by index.

  Point `t` of the grid writes back the columns 384·t ‥ of its output block that lie inside the expert-major array; on
  those columns the block is the array `softT` of the two arguments read through the block (`flushed_eq`): a column of the
  block is the softmax of the table against the token row of the same number, and that row is a row of the token array.
  The eleven written-back parts cover the 4096 columns (ten of 384 and one of 256), so the array ends at `softT`; the
  host's transpose then swaps the last two coordinates, which makes it `soft`.
-/
import proofs.«131706_g54193897341570_cont_sun_m_1179_17_alg».proof.Proof.KIRun
import Idealize.ShloMosaic.Lib.Pipeline.Value
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Router

variable (m : (ℓ : Loc nD τ sig) → Buf (Elt Ideal) ℓ) (ρ : Dev nD → PrngReg)

/-! ## Where the blocks sit -/

/-- The printed index maps over the grid: the token window walks the row axis, the output window the column axis, the
    table's block is the table. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val :=
  (by decide +kernel : ∀ t : Fin grid0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val)

/-- How many columns a point writes back: 384, and 256 at the last point, where the block overhangs the array. -/
theorem col_sizes : ∀ t : Fin cfg0.N,
    (t.val < 10 → win0_2.xsize (grid0.coords t) 2 = 384) ∧ (t.val = 10 → win0_2.xsize (grid0.coords t) 2 = 256) :=
  (by decide +kernel : ∀ t : Fin grid0.N,
    (t.val < 10 → win0_2.xsize (grid0.coords t) 2 = 384) ∧ (t.val = 10 → win0_2.xsize (grid0.coords t) 2 = 256))

/-- The softmax of one token depends on the row and the expert through their values alone. -/
theorem colSoft_congr (wv : (⟨2, ![64, 4096]⟩ : Shape).Idx → EReal) {row row' : Fin 4096 → EReal} {e e' : Fin 64}
    (hr : ∀ k, row k = row' k) (he : e.val = e'.val) : colSoft wv row e = colSoft wv row' e' := by
  obtain rfl : e = e' := Fin.ext he
  rw [show row = row' from funext hr]

/-- The table's block at any point is the table. -/
theorem tab_eq (c : Dev nD) (t : Fin cfg0.N) : iblk m c 1 t = V m c main_arg1 := by
  funext j
  show V m c main_arg1 (((cfg0.win 1).blk t).view.emb j) = V m c main_arg1 j
  refine congrArg _ (funext fun a => Fin.ext ?_)
  obtain ⟨-, -, -, e3, e4, -⟩ := idx_facts t
  match a with
  | ⟨0, _⟩ => show win0_1.index t (0 : Fin 2) * 64 + 1 * (j 0).val = (j 0).val; omega
  | ⟨1, _⟩ => show win0_1.index t (1 : Fin 2) * 4096 + 1 * (j 1).val = (j 1).val; omega

/-- The token rows under the columns a point writes back are rows its fetch landed. -/
theorem moved_tok (t : Fin cfg0.N) (j : (win0_2.xblock (grid0.coords t)).Idx) (k : Fin 4096) :
    win0_0.moved (grid0.coords t) (ix3 (win0_2.xinj (grid0.coords t) j 0) (win0_2.xinj (grid0.coords t) j 2) k) = true := by
  refine (win0_0.moved_iff _ _).mpr fun a => ?_
  obtain ⟨h00, h02, h01, h20, h21⟩ := Run.moved_sizes t
  match a with
  | ⟨0, _⟩ => have hj : (j 0).val < win0_2.xsize (grid0.coords t) 0 := (j 0).isLt; show (j 0).val < win0_0.xsize (grid0.coords t) 0; omega
  | ⟨1, _⟩ => have hj : (j 2).val < win0_2.xsize (grid0.coords t) 2 := (j 2).isLt; show (j 2).val < win0_0.xsize (grid0.coords t) 1; omega
  | ⟨2, _⟩ => have hk : k.val < 4096 := k.isLt; show k.val < win0_0.xsize (grid0.coords t) 2; omega

/-! ## What a point writes back -/

/-- The part of point `t`'s output block that is written back is block `t` of `softT` of the two argument arrays. -/
theorem flushed_eq (c : Dev nD) (t : Fin cfg0.N) :
    (Run.dats m 0 c).flushed 2 t
      = ((cfg0.win 2).blk t).view.read (Elt Ideal) (softT (V m c main_arg0) (V m c main_arg1)) := by
  show (cfg0.win 2).cut (grid0.coords t) ((Run.dats m 0 c).after 2 t) = _
  rw [Run.after_2]
  funext j
  show Body.outBlk (F := Ideal) _ _ (win0_2.xinj (grid0.coords t) j) = softT _ _ (((cfg0.win 2).blk t).view.emb j)
  rw [Block.outBlk_apply, tab_eq]
  unfold softT
  obtain ⟨e00, e01, e02, -, -, e20, e21, e22⟩ := idx_facts t
  refine colSoft_congr _ (fun k => ?_) ?_
  · unfold Run.tokBlk Window.fill
    rw [dif_pos (moved_tok t j k)]
    show V m c main_arg0 (((cfg0.win 0).blk t).view.emb _) = V m c main_arg0 _
    refine congrArg _ (funext fun a => Fin.ext ?_)
    match a with
    | ⟨0, _⟩ => show win0_0.index t (0 : Fin 3) * 4 + 1 * (j 0).val = win0_2.index t (0 : Fin 3) * 4 + 1 * (j 0).val; omega
    | ⟨1, _⟩ => show win0_0.index t (1 : Fin 3) * 384 + 1 * (j 2).val = win0_2.index t (2 : Fin 3) * 384 + 1 * (j 2).val; omega
    | ⟨2, _⟩ => show win0_0.index t (2 : Fin 3) * 4096 + 1 * k.val = k.val; omega
  · show (j 1).val = win0_2.index t (1 : Fin 3) * 64 + 1 * (j 1).val; omega

/-! ## The written-back parts cover the array -/

/-- An index of the expert-major array is in point `t`'s written-back part iff each coordinate is in the part's range. -/
theorem mem_blk (t : Fin cfg0.N) (i : S4x64x4096.Idx) :
    i ∈ ((cfg0.win 2).blk t).view.set ↔ ∀ a : Fin 3, win0_2.index t a * S4x64x384.size a ≤ (i a).val
      ∧ (i a).val < win0_2.index t a * S4x64x384.size a + win0_2.xsize (grid0.coords t) a := by
  show i ∈ ((View.whole main_call0_v0).slice (win0_2.rect t)).set ↔ _
  rw [View.set_slice_whole, Rect.mem_set_unit]
  exact Iff.rfl

/-- Column `s` is written back by point `s / 384`. -/
theorem cover (i : S4x64x4096.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 4096 := (i 2).isLt
  have hN := N_0
  let t : Fin cfg0.N := ⟨(i 2).val / 384, by show (i 2).val / 384 < grid0.N; omega⟩
  have ht : t.val = (i 2).val / 384 := rfl
  refine ⟨t, flush0_2 t, (mem_blk t i).mpr fun a => ?_⟩
  obtain ⟨-, -, -, -, -, e0, e1, e2⟩ := idx_facts t
  obtain ⟨-, -, -, s0, s1⟩ := Run.moved_sizes t
  obtain ⟨c1, c2⟩ := col_sizes t
  match a with
  | ⟨0, _⟩ =>
    show win0_2.index t (0 : Fin 3) * 4 ≤ (i 0).val ∧ (i 0).val < win0_2.index t (0 : Fin 3) * 4 + win0_2.xsize (grid0.coords t) 0
    omega
  | ⟨1, _⟩ =>
    show win0_2.index t (1 : Fin 3) * 64 ≤ (i 1).val ∧ (i 1).val < win0_2.index t (1 : Fin 3) * 64 + win0_2.xsize (grid0.coords t) 1
    omega
  | ⟨2, _⟩ =>
    show win0_2.index t (2 : Fin 3) * 384 ≤ (i 2).val ∧ (i 2).val < win0_2.index t (2 : Fin 3) * 384 + win0_2.xsize (grid0.coords t) 2
    rcases Nat.lt_or_ge t.val 10 with h | h
    · have := c1 h; omega
    · have h10 : t.val = 10 := by omega
      have := c2 h10; omega

/-- The expert-major array after the region is `softT` of the two arguments. -/
theorem final (c : Dev nD) :
    (Run.dats m 0 c).arrAt 2 cfg0.N = softT (V m c main_arg0) (V m c main_arg1) :=
  (Run.dats m 0 c).arrAt_eq_of_cover 2 _ (fun t _ => flushed_eq m c t) cover

/-! ## The host's transpose -/

/-- The program's result, after the transpose of the last two axes, is `soft` of the two arguments. -/
theorem result_eq (c : Dev nD) :
    Pipeline.afterTail₀ cfgs (Run.dats m) 0 (V0 m) [hostOps1] c main_v0 = soft (V m c main_arg0) (V m c main_arg1) := by
  unfold Pipeline.afterTail₀
  show StableHlo.after hostOps1 _ (Proc.devRef .tc main_v0) = _
  after_results
  show transpose S4x4096x64 [0, 2, 1] (Pipeline.withArrays spec0 c (V0 m c) (fun w => (Run.dats m 0 c).arrAt w cfg0.N)
    (Proc.devRef .tc (Pipeline.arrRef spec0 2))) _ = _
  rw [(Pipeline.withArrays_arr spec0 launch0.win.arr_inj c _ _ 2).trans (final m c)]
  funext i
  refine (transpose_apply [0, 2, 1] _ _ i (ix3 (i 0) (i 2) (i 1)) fun b => ?_).trans rfl
  match b with
  | ⟨0, _⟩ => rfl
  | ⟨1, _⟩ => rfl
  | ⟨2, _⟩ => rfl

/-! ## The run, read -/

/-- The result's buffer is no array of the pipeline and is live across the region: it passes the region by, and the
    transpose writes it. -/
theorem result_passes : main_v0 ∈ Pipeline.restRefs sig spec0 :=
  Pipeline.mem_restRefs_of main_v0 rfl (fun w => by fin_cases w <;> decide)

/-- The program's run re-posted: the result at `soft` of the two arguments, the arguments unchanged. -/
theorem run : θ_run defs (onTc (τ := τ) (main (F := Ideal))) ⟨m, fun _ => 0, ρ⟩ fun r => ∀ c : Dev nD,
      r.2.mem ((c.tc : Thread nD τ).loc main_v0)
        = soft (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v0 result_passes).trans (result_eq m c),
      ((h c).1 0).trans (((Run.dats m 0 c).arrAt_in 0 rfl _).trans ((Run.A_eq m c 0).trans (V_main_arg0 m c))),
      ((h c).1 1).trans (((Run.dats m 0 c).arrAt_in 1 rfl _).trans ((Run.A_eq m c 1).trans (V_main_arg1 m c)))⟩)
    (Run.run_main m ρ)

end Cert.KernelIdeal.Result

end
-- ==== Proof.RefValue.lean ====
/-
  The reference at the ideal instance, read index by index: a softmax over the expert axis of the
  contraction of the token's features with each expert's embedding.

  Stage by stage, at the entry (b, s, e): the contraction is the sum over the features of the token's feature times
  the expert's embedding, the specification's logit with the two factors of each product swapped; the row maximum is
  the fold of the maximum over the 64 logits from the word of minus infinity; the maximum taken once more with that
  word changes nothing; the shifted exponential is the exponential of the logit less that maximum; the row sum starts
  from the zero word, which is the extended real zero; the quotient is the ideal division.
-/
import proofs.«131706_g54193897341570_cont_sun_m_1179_17_alg».proof.Defs
import proofs.«131706_g54193897341570_cont_sun_m_1179_17_alg».proof.Proof.Gen.ReferenceIdeal.Run
import proofs.«131706_g54193897341570_cont_sun_m_1179_17_alg».proof.Proof.Gen.ReferenceIdeal.Read
import proofs.«131706_g54193897341570_cont_sun_m_1179_17_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Router

/-- The features of token (b, s). -/
abbrev row (x : (⟨S4x4096x4096, .f32⟩ : BufTy).Contents (Elt Ideal)) (b : Fin 4) (s : Fin 4096) : Fin 4096 → EReal :=
  fun k => x (ix3 b s k)

/-- The contraction at (b, s, e) is expert e's logit of token (b, s): the factors of each product commute. -/
theorem contraction_eq_logits (x : (⟨S4x4096x4096, .f32⟩ : BufTy).Contents (Elt Ideal))
    (w : (⟨S64x4096, .f32⟩ : BufTy).Contents (Elt Ideal)) (b : Fin 4) (s : Fin 4096) (e : Fin 64) :
    val_main_v0 (F := Ideal) x w (ix3 b s e) = logits w (row x b s) e := by
  rw [val_main_v0_apply]
  unfold logits
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]
  exact mul_comm _ _

/-- The shape fact that names the index inserted on the expert axis. -/
theorem reduces_d2 : S4x4096x64.Reduces [2] S4x4096 := by decide

/-- Token (b, s)'s index with expert e inserted on the last axis. -/
theorem lift_eq (b : Fin 4) (s : Fin 4096) (e : Fin 64) :
    reduces_d2.lift (ix2 b s) e = ix3 b s e :=
  funext fun a => Fin.ext (by match a with | ⟨0, _⟩ => rfl | ⟨1, _⟩ => rfl | ⟨2, _⟩ => rfl)

/-- The row maximum at (b, s) is the largest logit of token (b, s), folded from minus infinity. -/
theorem rowmax_eq_top (x : (⟨S4x4096x4096, .f32⟩ : BufTy).Contents (Elt Ideal))
    (w : (⟨S64x4096, .f32⟩ : BufTy).Contents (Elt Ideal)) (b : Fin 4) (s : Fin 4096) :
    val_main_v1 (F := Ideal) x w (ix2 b s) = top w (row x b s) := by
  unfold val_main_v1
  rw [Host.reduce_eq_fold_single FloatOps.maximumf _ _ reducesTo_S4x4096x64_S4x4096_d2 reduces_d2 h_S_]
  unfold top
  have hf : (val_main_v0 (F := Ideal) x w ∘ reduces_d2.lift (ix2 b s)) = logits w (row x b s) :=
    funext fun e => (congrArg (val_main_v0 (F := Ideal) x w) (lift_eq b s e)).trans (contraction_eq_logits x w b s e)
  rw [hf]
  rfl

/-- The maximum with the broadcast word of minus infinity is still the largest logit. -/
theorem max_eq_top (x : (⟨S4x4096x4096, .f32⟩ : BufTy).Contents (Elt Ideal))
    (w : (⟨S64x4096, .f32⟩ : BufTy).Contents (Elt Ideal)) (b : Fin 4) (s : Fin 4096) :
    val_main_v3 (F := Ideal) x w (ix2 b s) = top w (row x b s) := by
  rw [val_main_v3_apply, val_main_v2_apply, val_main_cst_0_apply, rowmax_eq_top]
  exact max_negInf_top w (row x b s)

/-- Broadcast back over the expert axis, every entry of token (b, s) carries its largest logit. -/
theorem shift_eq_top (x : (⟨S4x4096x4096, .f32⟩ : BufTy).Contents (Elt Ideal))
    (w : (⟨S64x4096, .f32⟩ : BufTy).Contents (Elt Ideal)) (b : Fin 4) (s : Fin 4096) (e : Fin 64) :
    val_main_v5 (F := Ideal) x w (ix3 b s e) = top w (row x b s) := by
  rw [val_main_v5_apply, val_main_v4_apply]
  have ei : idx_main_v4 (idx_main_v5 (ix3 b s e)) = ix2 b s :=
    funext fun a => Fin.ext (by match a with | ⟨0, _⟩ => rfl | ⟨1, _⟩ => rfl)
  rw [ei, max_eq_top]

/-- The exponential stage at (b, s, e) is the shifted exponential of expert e's logit. -/
theorem exp_eq_expo (x : (⟨S4x4096x4096, .f32⟩ : BufTy).Contents (Elt Ideal))
    (w : (⟨S64x4096, .f32⟩ : BufTy).Contents (Elt Ideal)) (b : Fin 4) (s : Fin 4096) (e : Fin 64) :
    val_main_v7 (F := Ideal) x w (ix3 b s e) = expo w (row x b s) e := by
  rw [val_main_v7_apply, val_main_v6_apply, contraction_eq_logits, shift_eq_top]
  rfl

/-- The row sum at (b, s), started from the zero word, is the sum of the 64 shifted exponentials. -/
theorem rowsum_eq_sum (x : (⟨S4x4096x4096, .f32⟩ : BufTy).Contents (Elt Ideal))
    (w : (⟨S64x4096, .f32⟩ : BufTy).Contents (Elt Ideal)) (b : Fin 4) (s : Fin 4096) :
    val_main_v8 (F := Ideal) x w (ix2 b s) = ∑ e' : Fin 64, expo w (row x b s) e' := by
  rw [val_main_v8_apply, val_main_cst_1_apply]
  show Ideal.ofBits .f32 0x00000000#32 + _ = _
  rw [Ideal.ofBits_zero_f32, zero_add]
  refine Finset.sum_congr rfl fun k _ => ?_
  have ei : idx_main_v8 (ix2 b s) k = ix3 b s k :=
    funext fun a => Fin.ext (by match a with | ⟨0, _⟩ => rfl | ⟨1, _⟩ => rfl | ⟨2, _⟩ => rfl)
  rw [ei, exp_eq_expo]

/-- Broadcast back over the expert axis, every entry of token (b, s) carries that sum. -/
theorem denom_eq_sum (x : (⟨S4x4096x4096, .f32⟩ : BufTy).Contents (Elt Ideal))
    (w : (⟨S64x4096, .f32⟩ : BufTy).Contents (Elt Ideal)) (b : Fin 4) (s : Fin 4096) (e : Fin 64) :
    val_main_v10 (F := Ideal) x w (ix3 b s e) = ∑ e' : Fin 64, expo w (row x b s) e' := by
  rw [val_main_v10_apply, val_main_v9_apply]
  have ei : idx_main_v9 (idx_main_v10 (ix3 b s e)) = ix2 b s :=
    funext fun a => Fin.ext (by match a with | ⟨0, _⟩ => rfl | ⟨1, _⟩ => rfl)
  rw [ei, rowsum_eq_sum]

/-- The reference's last stage is the specification's token-major softmax. -/
theorem ref_is_soft (x : (⟨S4x4096x4096, .f32⟩ : BufTy).Contents (Elt Ideal))
    (w : (⟨S64x4096, .f32⟩ : BufTy).Contents (Elt Ideal)) :
    val_main_v11 (F := Ideal) x w = soft x w := by
  funext i
  obtain ⟨b, s, e, rfl⟩ : ∃ (b : Fin 4) (s : Fin 4096) (e : Fin 64), i = ix3 b s e := ⟨i 0, i 1, i 2, eq_ix3 i⟩
  rw [val_main_v11_apply, exp_eq_expo, denom_eq_sum]
  rfl

end Cert.ReferenceIdeal.RefValue

end
-- ==== Proof.lean ====
/-
  The certificate of the expert router: a fused kernel that, for every token, contracts the token's 4096 features with
  each of 64 expert embeddings and takes the softmax of the 64 logits, against the plain reference that does the same with
  one contraction and one softmax over the last axis.

  At the ideal instance both programs compute, at (batch b, token s, expert e),

      exp (L e − max L) / Σ_e' exp (L e' − max L),   L e = Σ_k w[e, k] · x[b, s, k],

  the maximum folded from minus infinity. The kernel multiplies the table's entry by the token's, the reference the
  token's by the table's: multiplication of extended reals commutes, so no finiteness of the inputs is used. The reference
  takes the maximum with minus infinity once more, which changes nothing. The kernel writes its result expert-major and
  the host transposes it; the reference writes token-major directly.

  The kernel walks the 4096 tokens in eleven blocks of 384; the last block overhangs the array by 128 rows, which the
  fetch leaves at words nothing names. A token's result depends on its own row alone and the columns past the array's end
  are not written back, so those words reach no result. At the word-level instance the matrix unit's product is not
  opened, so there the frame is proved saying nothing of the output's contents; at the ideal instance the contents are
  named and the same run gives both the frame and the value.
-/
import proofs.«131706_g54193897341570_cont_sun_m_1179_17_alg».proof.Defs
import proofs.«131706_g54193897341570_cont_sun_m_1179_17_alg».proof.Proof.Gen.Kernel
import proofs.«131706_g54193897341570_cont_sun_m_1179_17_alg».proof.Proof.Gen.KernelIdeal
import proofs.«131706_g54193897341570_cont_sun_m_1179_17_alg».proof.Proof.Gen.ReferenceIdeal
import proofs.«131706_g54193897341570_cont_sun_m_1179_17_alg».proof.Proof.Gen.Pre_finite_inputs
import proofs.«131706_g54193897341570_cont_sun_m_1179_17_alg».proof.Proof.Gen.ReferenceIdeal.Run
import proofs.«131706_g54193897341570_cont_sun_m_1179_17_alg».proof.Proof.Gen.ReferenceIdeal.Read
import proofs.«131706_g54193897341570_cont_sun_m_1179_17_alg».proof.Proof.KFrame
import proofs.«131706_g54193897341570_cont_sun_m_1179_17_alg».proof.Proof.KIValue
import proofs.«131706_g54193897341570_cont_sun_m_1179_17_alg».proof.Proof.RefValue
import Idealize.ShloMosaic.Adequacy
import Idealize.ShloMosaic.Init

noncomputable section

namespace Cert.Proof

open Idealize.ShloMosaic Idealize.SL.Sem

/-- The word-level kernel runs to the end, faults nowhere, and leaves its arguments as they were. -/
theorem frame_kernel : Cert.frame_Kernel := fun m ρ _ => Cert.Kernel.Run.frame (F := Bits) m ρ

/-- So does the idealized kernel. -/
theorem frame_kernelIdeal : Cert.frame_KernelIdeal := fun m ρ _ => Cert.KernelIdeal.Run.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the same result: the softmax array `soft` of the
    arguments — the kernel's by its run and the transpose, the reference's stage by stage. -/
theorem algebraic : Cert.algebraic_KernelIdeal_ReferenceIdeal := by
  intro m ρ m' ρ' _ hagree
  refine ⟨fun c => Cert.Router.soft
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_is_soft, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
